-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1024x1024 : Shape := ⟨2, ![1024, 1024]⟩
abbrev S1024 : Shape := ⟨1, ![1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32768x512 .f32) (main_arg1 : FVec F S1024x1024 .f32) (main_arg2 : FVec F S1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32768x512 : Shape := ⟨2, ![32768, 512]⟩
abbrev S1024x1024 : Shape := ⟨2, ![1024, 1024]⟩
abbrev S1024 : Shape := ⟨1, ![1024]⟩
abbrev S256 : Shape := ⟨1, ![256]⟩
abbrev S_ : Shape := ⟨0, ![]⟩
abbrev S256x1 : Shape := ⟨2, ![256, 1]⟩
abbrev S256x2 : Shape := ⟨2, ![256, 2]⟩
abbrev S256x512 : Shape := ⟨2, ![256, 512]⟩
abbrev S512x256 : Shape := ⟨2, ![512, 256]⟩
abbrev S1x256 : Shape := ⟨2, ![1, 256]⟩
abbrev S32768x256 : Shape := ⟨2, ![32768, 256]⟩
abbrev S2048x512 : Shape := ⟨2, ![2048, 512]⟩
abbrev S2048x256 : Shape := ⟨2, ![2048, 256]⟩

abbrev nBuf : Space → Nat
  | .hbm => 34
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S1024x1024, .f32⟩
  | .hbm, ⟨2, _⟩ => ⟨S1024, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x2, .i32⟩
  | .hbm, ⟨21, _⟩ => ⟨S256x512, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S256, .f32⟩
  | .hbm, ⟨31, _⟩ => ⟨S512x256, .f32⟩
  | .hbm, ⟨32, _⟩ => ⟨S1x256, .f32⟩
  | .hbm, ⟨33, _⟩ => ⟨S32768x256, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  concatenates_S256x1_S256x1_S256x2_d1 : Shape.Concatenates [S256x1, S256x1] S256x2 1
  transposes_S256x512_S512x256_1_0 : S256x512.Transposes [1, 0] S512x256
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  gather_S1024x1024_S256x2_S256x512_1_0_n_n_01_1_1512_wf : GatherDims.WF S1024x1024 S256x2 S256x512 [1] [0] [] [0, 1] [] 1 ![1, 512]
  gather_S1024_S256x1_S256_n_0_n_n_0_1_1_wf : GatherDims.WF S1024 S256x1 S256 [] [0] [] [0] [] 1 ![1]
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S32768x256.size a
  hwx0_3 : ∀ i : grid0.Coords, EltTy.bits .f32 = 32 ∨ (Rect.block (s := S32768x256) S2048x256.size (cc0_transform_3 i) (hinb0_3 i)).WholeWords (EltTy.packing .f32)

variable [Facts₀]

def gather_S1024x1024_S256x2_S256x512_1_0_n_n_01_1_1512 : GatherDims S1024x1024 S256x2 S256x512 where
  offsetDims := [1]
  collapsedSliceDims := [0]
  operandBatchingDims := []
  startIndicesBatchingDims := []
  startIndexMap := [0, 1]
  indexVectorDim := 1
  sliceSizes := ![1, 512]
  wf := gather_S1024x1024_S256x2_S256x512_1_0_n_n_01_1_1512_wf
def gather_S1024_S256x1_S256_n_0_n_n_0_1_1 : GatherDims S1024 S256x1 S256 where
  offsetDims := []
  collapsedSliceDims := [0]
  operandBatchingDims := []
  startIndicesBatchingDims := []
  startIndexMap := [0]
  indexVectorDim := 1
  sliceSizes := ![1]
  wf := gather_S1024_S256x1_S256_n_0_n_n_0_1_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S1024x1024 : Shape := ⟨2, ![1024, 1024]⟩
abbrev S1024 : Shape := ⟨1, ![1024]⟩
abbrev S256 : Shape := ⟨1, ![256]⟩
abbrev S_ : Shape := ⟨0, ![]⟩
abbrev S256x1 : Shape := ⟨2, ![256, 1]⟩
abbrev S256x2 : Shape := ⟨2, ![256, 2]⟩
abbrev S256x512 : Shape := ⟨2, ![256, 512]⟩
abbrev S512x256 : Shape := ⟨2, ![512, 256]⟩
abbrev S32768x256 : Shape := ⟨2, ![32768, 256]⟩
abbrev S1x256 : Shape := ⟨2, ![1, 256]⟩

abbrev nBuf : Space → Nat
  | .hbm => 36
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1024x1024, .f32⟩
  | .hbm, ⟨2, _⟩ => ⟨S1024, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x2, .i32⟩
  | .hbm, ⟨21, _⟩ => ⟨S256x512, .f32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S256, .f32⟩
  | .hbm, ⟨31, _⟩ => ⟨S512x256, .f32⟩
  | .hbm, ⟨32, _⟩ => ⟨S32768x256, .f32⟩
  | .hbm, ⟨33, _⟩ => ⟨S1x256, .f32⟩
  | .hbm, ⟨34, _⟩ => ⟨S32768x256, .f32⟩
  | .hbm, ⟨35, _⟩ => ⟨S32768x256, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  concatenates_S256x1_S256x1_S256x2_d1 : Shape.Concatenates [S256x1, S256x1] S256x2 1
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  gather_S1024x1024_S256x2_S256x512_1_0_n_n_01_1_1512_wf : GatherDims.WF S1024x1024 S256x2 S256x512 [1] [0] [] [0, 1] [] 1 ![1, 512]
  gather_S1024_S256x1_S256_n_0_n_n_0_1_1_wf : GatherDims.WF S1024 S256x1 S256 [] [0] [] [0] [] 1 ![1]
  dot_S32768x512_S512x256_S32768x256_1_0_0_1_n_n_wf : DotDims.WF S32768x512 S512x256 S32768x256 [1] [0] [0] [1] [] []

variable [Facts₀]

def gather_S1024x1024_S256x2_S256x512_1_0_n_n_01_1_1512 : GatherDims S1024x1024 S256x2 S256x512 where
  offsetDims := [1]
  collapsedSliceDims := [0]
  operandBatchingDims := []
  startIndicesBatchingDims := []
  startIndexMap := [0, 1]
  indexVectorDim := 1
  sliceSizes := ![1, 512]
  wf := gather_S1024x1024_S256x2_S256x512_1_0_n_n_01_1_1512_wf
def gather_S1024_S256x1_S256_n_0_n_n_0_1_1 : GatherDims S1024 S256x1 S256 where
  offsetDims := []
  collapsedSliceDims := [0]
  operandBatchingDims := []
  startIndicesBatchingDims := []
  startIndexMap := [0]
  indexVectorDim := 1
  sliceSizes := ![1]
  wf := gather_S1024_S256x1_S256_n_0_n_n_0_1_1_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf

class Facts : Prop extends Facts₀ where

variable [Facts]
-- ==== Proof.Payload.lean ====
/-
  What the kernel body stores, read at one entry of the output block.

  The body loads a block of 2048 rows of the activations, the whole 512 × 256 weight matrix and the 1 × 256 bias row,
  multiplies the first two on the matrix unit into a zero accumulator and adds the bias row to every row of the
  product. On the extended reals the two changes of float format before the product are the identity and the
  product into zero is the plain sum over the contracted axis, so entry `(p, q)` of what is stored is
      `(∑ k < 512, x (p, k) · w (k, q)) + b (0, q)`.
-/
import proofs.«163179_j73177652789461_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The matrix product's operand indices, axis by axis -/

/-- The left operand's row is the output's row. -/
theorem lhs_row (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- The left operand's column is the contraction position. -/
theorem lhs_col (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- The right operand's row is the contraction position. -/
theorem rhs_row (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- The right operand's column is the output's column. -/
theorem rhs_col (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The block product into a zero accumulator, at entry `(p, q)`: row `p` of the left operand against column `q` of
    the right one, summed over the 512 contraction positions. -/
theorem product_apply (a : FVec Ideal S2048x512 .bf16) (b : FVec Ideal S512x256 .bf16) (p : Fin 2048) (q : Fin 256) :
    matmul dot_S2048x512_S512x256_S2048x256_1_0_0_1_n_n none a b (constant S2048x256 .f32 0x00000000#32) (ix2 p q)
      = ∑ k : Fin 512, a (ix2 p k) * b (ix2 k q) := by
  simp only [matmul]
  rw [Ideal.matmul_constant_zero_apply, ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p q) ((contrEquiv1 dot_S2048x512_S512x256_S2048x256_1_0_0_1_n_n 512 rfl rfl).symm k) = ix2 p k := funext fun a => Fin.ext (by
    match a with
    | ⟨0, _⟩ => exact lhs_row _ _
    | ⟨1, _⟩ => exact (lhs_col _ _).trans hk)
  have er : dot_S2048x512_S512x256_S2048x256_1_0_0_1_n_n.rhsIdx (ix2 p q) ((contrEquiv1 dot_S2048x512_S512x256_S2048x256_1_0_0_1_n_n 512 rfl rfl).symm k) = ix2 k q := funext fun a => Fin.ext (by
    match a with
    | ⟨0, _⟩ => exact (rhs_row _ _).trans hk
    | ⟨1, _⟩ => exact rhs_col _ _)
  rw [el, er]

/-- The bias row spread over the 2048 rows of the block, at entry `(p, q)`, is the row's entry `q`. -/
theorem bias_rows_apply (b : FVec Ideal S1x256 .f32) (p : Fin 2048) (q : Fin 256) :
    broadcastTo S2048x256 b broadcasts_S1x256_S2048x256 (ix2 p q) = b (ix2 (0 : Fin 1) q) :=
  broadcastTo_apply b broadcasts_S1x256_S2048x256 (ix2 p q) (ix2 (0 : Fin 1) q) (fun a => by
    match a with
    | ⟨0, _⟩ => show 0 = if (1 : Nat) = 1 then 0 else p.val; rw [if_pos rfl]
    | ⟨1, _⟩ => show q.val = if (256 : Nat) = 1 then 0 else q.val; rw [if_neg (by decide)])

/-- THE STORED VALUE at entry `(p, q)` of the block: the row-by-column sum plus the bias row's entry. -/
theorem stored_apply (x : Vec Ideal S2048x512 .f32) (w : Vec Ideal S512x256 .f32) (b : Vec Ideal S1x256 .f32)
    (p : Fin 2048) (q : Fin 256) :
    k0_pay1 (F := Ideal) x w b (ix2 p q) = (∑ k : Fin 512, x (ix2 p k) * w (ix2 k q)) + b (ix2 (0 : Fin 1) q) := by
  unfold k0_pay1
  rw [addf_apply, product_apply, bias_rows_apply, shapeCast_self, shapeCast_self]
  rfl

end Cert.KernelIdeal.Payload

end
-- ==== Proof.Affine.lean ====
/-
  The function both programs compute, stated once over literal shapes and free of either program's text.

  For an activation matrix `x` of 32768 rows and 512 columns, a weight matrix `wt` of 512 rows and 256 columns and a
  bias vector `g` of 256 entries, the affine layer is
      `affine x wt g (r, n) = (∑ k < 512, x (r, k) · wt (k, n)) + g n`
  on the extended reals. Each side of the certificate reaches this same sum of 512 products in the same shape (a sum
  over the contracted axis, then the bias added on the right), so no law of the extended reals beyond the
  definitions is needed and finiteness of the inputs is never used.
-/
import Idealize.ShloMosaic.PureOps.Ideal
import Idealize.ShloMosaic.Lib.ValueIdx

noncomputable section

namespace Cert.Affine

open Idealize.ShloMosaic Idealize.ShloMosaic.ValueIdx

/-- Entry `(r, n)` of the affine layer: row `r` of `x` against column `n` of `wt`, plus entry `n` of the bias. -/
def affine (x : FVec Ideal (⟨2, ![32768, 512]⟩ : Shape) .f32) (wt : FVec Ideal (⟨2, ![512, 256]⟩ : Shape) .f32)
    (g : FVec Ideal (⟨1, ![256]⟩ : Shape) .f32) : FVec Ideal (⟨2, ![32768, 256]⟩ : Shape) .f32 :=
  fun i => (∑ k : Fin 512, x (ix2 (i 0) k) * wt (ix2 k (i 1))) + g (ix1 (i 1))

/-- The same entry with the output index given by its two coordinates. -/
theorem affine_apply (x : FVec Ideal (⟨2, ![32768, 512]⟩ : Shape) .f32) (wt : FVec Ideal (⟨2, ![512, 256]⟩ : Shape) .f32)
    (g : FVec Ideal (⟨1, ![256]⟩ : Shape) .f32) (r : Fin 32768) (n : Fin 256) :
    affine x wt g (ix2 r n) = (∑ k : Fin 512, x (ix2 r k) * wt (ix2 k n)) + g (ix1 n) := rfl

end Cert.Affine

end
-- ==== Proof.Layer.lean ====
/-
  The kernel's output array after the run is the affine layer of the arrays the region finds.

  The grid has 16 points; point `t` stages rows `2048·t … 2048·t + 2047` of the activations, the whole weight operand
  and the whole bias row, and writes back rows `2048·t … 2048·t + 2047` of the output. What it writes at entry `(p, q)` of
  its block is the row-by-column sum plus the bias entry (the stored value), which is entry `(2048·t + p, q)` of the
  affine layer of the whole arrays; the 16 row blocks cover the output, so the array ends holding the affine layer.
-/
import proofs.«163179_j73177652789461_1_alg».proof.Proof.Gen.KernelIdeal.Value
import proofs.«163179_j73177652789461_1_alg».proof.Proof.Payload
import proofs.«163179_j73177652789461_1_alg».proof.Proof.Affine
import Idealize.ShloMosaic.Lib.Tactic

noncomputable section

namespace Cert.KernelIdeal.Layer

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them, at their literal types -/

/-- The activations. -/
abbrev xarr (c : Dev nD) : Vec Ideal S32768x512 .f32 := V m c main_arg0
/-- The weight operand the host prepared: 512 rows, 256 columns. -/
abbrev warr (c : Dev nD) : Vec Ideal S512x256 .f32 := V m c main_v21
/-- The bias row the host prepared. -/
abbrev brow (c : Dev nD) : Vec Ideal S1x256 .f32 := V m c main_v22

/-- The output the kernel is to leave: the affine layer of those three, the bias row read as a vector. -/
def layer (c : Dev nD) : Vec Ideal S32768x256 .f32 :=
  Cert.Affine.affine (xarr m c) (warr m c) (fun i => brow m c (ix2 (0 : Fin 1) (i 0)))

/-! ## Where each window's block sits -/

/-- The index maps over the 16 points: the activations' row block moves with the output's, every other block index is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every one of the 16 row blocks of the output is some point's. -/
theorem idx_onto : ∀ q : Fin 16, ∃ t : Fin cfg0.N, win0_3.index t = ![q.val, 0] :=
  (by decide +kernel : ∀ q : Fin 16, ∃ t : Fin grid0.N, win0_3.index t = ![q.val, 0])

/-- The activations' block at point `t`, entry `y`, is the array at row `2048·(block index) + y₀`, column `y₁`. -/
theorem xblk_apply (c : Dev nD) (t : Fin cfg0.N) (y : S2048x512.Idx) (i : S32768x512.Idx)
    (h0 : (i 0).val = win0_3.index t (0 : Fin 2) * 2048 + (y 0).val) (h1 : (i 1).val = (y 1).val) :
    (iblk m c 0 t : Vec Ideal S2048x512 .f32) y = xarr m c i := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * (y 0).val = (i 0).val; omega
  | ⟨1, _⟩ => show win0_0.index t (1 : Fin 2) * 512 + 1 * (y 1).val = (i 1).val; omega

/-- The weight operand's block at every point is the whole array. -/
theorem wblk_apply (c : Dev nD) (t : Fin cfg0.N) (y : S512x256.Idx) :
    (iblk m c 1 t : Vec Ideal S512x256 .f32) y = warr m c y := by
  obtain ⟨-, -, e0, e1, -⟩ := idx_facts t
  unfold iblk
  rw [View.read_apply]
  show V m c main_v21 _ = V m c main_v21 _
  congr 1
  funext a
  apply Fin.ext
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- The bias row's block at every point is the whole row. -/
theorem bblk_apply (c : Dev nD) (t : Fin cfg0.N) (y : S1x256.Idx) :
    (iblk m c 2 t : Vec Ideal S1x256 .f32) y = brow m c y := by
  obtain ⟨-, -, -, -, e0, e1, -⟩ := idx_facts t
  unfold iblk
  rw [View.read_apply]
  show V m c main_v22 _ = V m c main_v22 _
  congr 1
  funext a
  apply Fin.ext
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- The stored value at an entry `y` of the block, over any three loaded blocks. -/
theorem stored_at (x : Vec Ideal S2048x512 .f32) (w : Vec Ideal S512x256 .f32) (b : Vec Ideal S1x256 .f32) (y : S2048x256.Idx) :
    k0_pay1 (F := Ideal) x w b y = (∑ k : Fin 512, x (ix2 (y 0) k) * w (ix2 k (y 1))) + b (ix2 (0 : Fin 1) (y 1)) := by
  exact (congrArg (k0_pay1 (F := Ideal) x w b) (eq_ix2 y)).trans (Cert.KernelIdeal.Payload.stored_apply x w b (y 0) (y 1))

/-- The stored value of point `t`'s three blocks at entry `y` is the affine layer at row `2048·(block index) + y₀`,
    column `y₁`: each factor and the bias entry read through its window. -/
theorem layer_at (c : Dev nD) (t : Fin cfg0.N) (y : S2048x256.Idx) (i : S32768x256.Idx)
    (h0 : (i 0).val = win0_3.index t (0 : Fin 2) * 2048 + (y 0).val) (h1 : (i 1).val = (y 1).val) :
    k0_pay1 (F := Ideal) (iblk m c 0 t) (iblk m c 1 t) (iblk m c 2 t) y = layer m c i := by
  refine (stored_at (iblk m c 0 t) (iblk m c 1 t) (iblk m c 2 t) y).trans ?_
  have e1 : y 1 = i 1 := Fin.ext h1.symm
  unfold layer Cert.Affine.affine
  refine congrArg₂ (· + ·) (Finset.sum_congr rfl fun k _ => congrArg₂ (· * ·) ?_ ?_) ?_
  · exact xblk_apply m c t (ix2 (y 0) k) (ix2 (i 0) k) h0 rfl
  · rw [wblk_apply m c t, e1]
  · rw [bblk_apply m c t, e1]

/-- WHAT POINT `t` WRITES BACK is block `t` of the affine layer. -/
theorem flushed_eq (c : Dev nD) (t : Fin cfg0.N) :
    (dats m 0 c).flushed 3 t = ((cfg0.win 3).blk t).view.read (Elt Ideal) (layer m c) := by
  rw [flushed3]
  unfold out0_3
  rw [View.canon_unit_zero hz]
  simp only [View.ld_unit_zero (S := S2048x512) hz, View.ld_unit_zero (S := S512x256) hz, View.ld_unit_zero (S := S1x256) hz]
  funext j
  show k0_pay1 (F := Ideal) (iblk m c 0 t) (iblk m c 1 t) (iblk m c 2 t) j = layer m c (((cfg0.win 3).blk t).view.emb j)
  obtain ⟨-, -, -, -, -, -, e1, -⟩ := idx_facts t
  exact layer_at m c t j (((cfg0.win 3).blk t).view.emb j)
    (by show win0_3.index t (0 : Fin 2) * 2048 + 1 * (j 0).val = _; omega)
    (by show win0_3.index t (1 : Fin 2) * 256 + 1 * (j 1).val = (j 1).val; omega)

/-- An index of the output is in point `t`'s block iff each coordinate is in the block's range on its axis. -/
theorem mem_blk (t : Fin cfg0.N) (i : S32768x256.Idx) :
    i ∈ ((cfg0.win 3).blk t).view.set ↔ ∀ a : Fin 2, win0_3.index t a * S2048x256.size a ≤ (i a).val ∧ (i a).val < win0_3.index t a * S2048x256.size a + S2048x256.size a := by
  show i ∈ ((View.whole main_v23).slice (win0_3.rect t)).set ↔ _
  rw [View.set_slice_whole, Rect.mem_set_unit]
  exact Iff.rfl

/-- Every index of the output lies in the block of the point that owns its row: row `r` belongs to block `r / 2048`. -/
theorem cover (i : S32768x256.Idx) : ∃ t : Fin cfg0.N, (cfg0.win 3).flush t = true ∧ i ∈ ((cfg0.win 3).blk t).view.set := by
  have hi0 : (i 0).val < 32768 := (i 0).isLt
  have hi1 : (i 1).val < 256 := (i 1).isLt
  obtain ⟨t, ht⟩ := idx_onto ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE OUTPUT ARRAY after the run is the affine layer. -/
theorem final (c : Dev nD) : (dats m 0 c).arrAt 3 cfg0.N = layer m c :=
  (dats m 0 c).arrAt_eq_of_cover 3 (layer m c) (fun t _ => flushed_eq m c t) cover

/-- The kernel's run, read: the result array at the affine layer of the arrays the region finds, the arguments unchanged. -/
theorem run : θ_run defs (onTc (τ := τ) (main (F := Ideal))) ⟨m, fun _ => 0, ρ⟩ fun r => ∀ c : Dev nD,
      r.2.mem ((c : Thread nD τ).loc main_v23) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Layer

end
-- ==== Proof.HostPrefix.lean ====
/-
  The two operands the host prepares before the kernel region, and the affine layer over the arguments.

  Before the region @main selects 256 rows of the weight argument (the last 256, in reverse order), keeps their first
  512 columns and transposes the result, and selects the same 256 entries of the bias argument and lays them out as one
  row. The reference prepares the very same two values by the very same operations, so they are identified with the
  reference's stages by unfolding alone: which rows the gathers select never has to be computed. The bias row read at
  `(0, n)` is the gathered bias vector at `n` (a reshape that only adds a leading axis of extent one).
-/
import proofs.«163179_j73177652789461_1_alg».proof.Proof.Gen.KernelIdeal.Frame
import proofs.«163179_j73177652789461_1_alg».proof.Proof.Gen.ReferenceIdeal.Read
import proofs.«163179_j73177652789461_1_alg».proof.Proof.Layer
import Idealize.ShloMosaic.Lib.StableHlo.Run
import Idealize.ShloMosaic.Lib.Pipeline.Value

noncomputable section

namespace Cert.KernelIdeal.HostPrefix

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The weight operand the region finds is the reference's transposed gather of the weight argument. -/
theorem weights_eq (c : Dev nD) :
    (V m c main_v21 : Vec Ideal S512x256 .f32) = Cert.ReferenceIdeal.Read.val_main_v21 (F := Ideal) (m ((c : Thread nD τ).loc main_arg1)) := by
  dsimp only [Gen.V, Gen.hostOps0]
  after_results
  rfl

set_option maxHeartbeats 2000000 in
/-- The bias row the region finds is the reference's gathered bias vector laid out as one row. -/
theorem bias_row_eq (c : Dev nD) :
    (V m c main_v22 : Vec Ideal S1x256 .f32)
      = shapeCast S1x256 (Cert.ReferenceIdeal.Read.val_main_v20 (F := Ideal) (m ((c : Thread nD τ).loc main_arg2))) shapeCasts_S256_S1x256 := by
  dsimp only [Gen.V, Gen.hostOps0]
  after_results
  rfl

/-- A vector laid out as one row, read at `(0, n)`, is the vector at `n`. -/
theorem one_row_apply (g : FVec Ideal S256 .f32) (n : Fin 256) :
    shapeCast S1x256 g shapeCasts_S256_S1x256 (ix2 (0 : Fin 1) n) = g (ix1 n) := by
  refine (shapeCast_addUnit_apply ![256] g shapeCasts_S256_S1x256 (ix2 (0 : Fin 1) n)).trans (congrArg g ?_)
  funext a
  match a with
  | ⟨0, _⟩ => rfl

/-- THE KERNEL'S RESULT OVER THE ARGUMENTS: the affine layer of the activations as launched, of the reference's weight
    operand and of the reference's gathered bias. -/
theorem layer_eq (c : Dev nD) :
    Cert.KernelIdeal.Layer.layer m c
      = Cert.Affine.affine (m ((c : Thread nD τ).loc main_arg0))
          (Cert.ReferenceIdeal.Read.val_main_v21 (F := Ideal) (m ((c : Thread nD τ).loc main_arg1)))
          (Cert.ReferenceIdeal.Read.val_main_v20 (F := Ideal) (m ((c : Thread nD τ).loc main_arg2))) := by
  unfold Cert.KernelIdeal.Layer.layer
  have hb : (fun i : S256.Idx => (V m c main_v22 : Vec Ideal S1x256 .f32) (ix2 (0 : Fin 1) (i 0)))
      = Cert.ReferenceIdeal.Read.val_main_v20 (F := Ideal) (m ((c : Thread nD τ).loc main_arg2)) := by
    funext i
    obtain ⟨n, rfl⟩ : ∃ n : Fin 256, i = ix1 n := ⟨i 0, eq_ix1 i⟩
    rw [bias_row_eq m c]
    exact one_row_apply _ n
  show Cert.Affine.affine (V m c main_arg0) (V m c main_v21) (fun i : S256.Idx => (V m c main_v22 : Vec Ideal S1x256 .f32) (ix2 (0 : Fin 1) (i 0))) = _
  rw [hb, weights_eq m c, V_main_arg0 m c]

end Cert.KernelIdeal.HostPrefix

end
-- ==== Proof.RefAffine.lean ====
/-
  The reference computes the affine layer.

  The reference multiplies the activations by the transposed, gathered weight rows with one whole `dot_general`, spreads
  the gathered bias over the rows and adds. Read at an output entry `(r, n)` the product is the sum over the 512
  contraction positions of `x (r, k)` times the weight operand at `(k, n)`, and the spread bias is the gathered bias's
  entry `n`: the affine layer of the activations, the weight operand and the gathered bias. The gathers themselves are
  never opened: they stay the same two terms on both sides of the certificate.
-/
import proofs.«163179_j73177652789461_1_alg».proof.Proof.Gen.ReferenceIdeal.Read
import proofs.«163179_j73177652789461_1_alg».proof.Proof.Affine

noncomputable section

namespace Cert.ReferenceIdeal.RefAffine

open Cert.ReferenceIdeal Cert.ReferenceIdeal.Gen Cert.ReferenceIdeal.Read Idealize.ShloMosaic Idealize.ShloMosaic.ValueIdx

/-- The reference's result, as a function of its three arguments, is the affine layer of the activations, of the
    transposed gathered weight rows and of the gathered bias entries. -/
theorem result_eq (x : (⟨S32768x512, .f32⟩ : BufTy).Contents (Elt Ideal)) (W : (⟨S1024x1024, .f32⟩ : BufTy).Contents (Elt Ideal))
    (b : (⟨S1024, .f32⟩ : BufTy).Contents (Elt Ideal)) :
    val_main_v25 (F := Ideal) x W b = Cert.Affine.affine x (val_main_v21 (F := Ideal) W) (val_main_v20 (F := Ideal) b) := by
  funext i
  have el : ∀ k : Fin 512, lidx_main_v22 i k = ix2 (i 0) k := fun k => funext fun a => by
    match a with
    | ⟨0, _⟩ => rfl
    | ⟨1, _⟩ => rfl
  have er : ∀ k : Fin 512, ridx_main_v22 i k = ix2 k (i 1) := fun k => funext fun a => by
    match a with
    | ⟨0, _⟩ => rfl
    | ⟨1, _⟩ => rfl
  have eb : idx_main_v23 (idx_main_v24 i) = ix1 (i 1) := funext fun a => by
    match a with
    | ⟨0, _⟩ => rfl
  rw [val_main_v25_apply, val_main_v22_apply, val_main_v24_apply, val_main_v23_apply, eb]
  simp only [el, er]
  rfl

end Cert.ReferenceIdeal.RefAffine

end
-- ==== Proof.lean ====
/-
  The certificate of a dense affine layer: a kernel that tiles `x · Wᵀ + b` over 16 row blocks of the
  activations, against the plain `x @ W_sel.T + b_sel` of the reference.

  Both programs first select the same 256 weight rows and bias entries on the host, by the same operations; those two
  values are shared terms and are never opened. What remains is one law: a matrix product computed block of rows by
  block of rows, on the matrix unit into a zero accumulator after two changes of float format, equals the one whole
  `dot_general`, entry by entry — on the extended reals both are the sum over the 512 contraction positions of the
  products, and the bias is added on the right of that sum on both sides. No cancellation or distribution is used, so the
  finiteness of the inputs is never needed.

  The modules:
    * `Proof/Affine.lean` — the affine layer as one function of three arrays;
    * `Proof/Payload.lean` — the value the kernel body stores, at an entry of its block;
    * `Proof/Layer.lean` — each point writes back its row block of the affine layer, the blocks cover the output,
      and so the kernel's run ends at the affine layer of the arrays the region finds;
    * `Proof/HostPrefix.lean` — those arrays are the activations as launched and the reference's two host stages;
    * `Proof/RefAffine.lean` — the reference's result is the affine layer of the same three.
-/
import proofs.«163179_j73177652789461_1_alg».proof.Defs
import proofs.«163179_j73177652789461_1_alg».proof.Proof.Gen.Kernel
import proofs.«163179_j73177652789461_1_alg».proof.Proof.Gen.Kernel.Skeleton
import proofs.«163179_j73177652789461_1_alg».proof.Proof.Gen.Kernel.Launch
import proofs.«163179_j73177652789461_1_alg».proof.Proof.Gen.Kernel.Points
import proofs.«163179_j73177652789461_1_alg».proof.Proof.Gen.Kernel.Frame
import proofs.«163179_j73177652789461_1_alg».proof.Proof.Gen.KernelIdeal
import proofs.«163179_j73177652789461_1_alg».proof.Proof.Gen.KernelIdeal.Skeleton
import proofs.«163179_j73177652789461_1_alg».proof.Proof.Gen.KernelIdeal.Launch
import proofs.«163179_j73177652789461_1_alg».proof.Proof.Gen.KernelIdeal.Points
import proofs.«163179_j73177652789461_1_alg».proof.Proof.Gen.KernelIdeal.Frame
import proofs.«163179_j73177652789461_1_alg».proof.Proof.Gen.ReferenceIdeal
import proofs.«163179_j73177652789461_1_alg».proof.Proof.Gen.Pre_finite_inputs
import proofs.«163179_j73177652789461_1_alg».proof.Proof.Gen.KernelIdeal.Value
import proofs.«163179_j73177652789461_1_alg».proof.Proof.Gen.ReferenceIdeal.Run
import proofs.«163179_j73177652789461_1_alg».proof.Proof.Gen.ReferenceIdeal.Read
import proofs.«163179_j73177652789461_1_alg».proof.Proof.Layer
import proofs.«163179_j73177652789461_1_alg».proof.Proof.HostPrefix
import proofs.«163179_j73177652789461_1_alg».proof.Proof.RefAffine
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on the arguments both programs end with the affine layer of the activations, of the
    transposed gathered weight rows and of the gathered bias: the kernel block of rows by block of rows, the reference
    in one product. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq _ _ _).trans ?_
  rw [Cert.ReferenceIdeal.RefAffine.result_eq, (hagree c).1, (hagree c).2.1, (hagree c).2.2]
  exact (Cert.KernelIdeal.HostPrefix.layer_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
